-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S14336x4096 : Shape := ⟨2, ![14336, 4096]⟩
abbrev S458752x2 : Shape := ⟨2, ![458752, 2]⟩
abbrev S4096 : Shape := ⟨1, ![4096]⟩
abbrev S14336 : Shape := ⟨1, ![14336]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S458752x2 : S_.BroadcastsInDim S458752x2 (![] : Fin 0 → Fin S458752x2.rank)
  reducesTo_S458752x2_S_d0_1 : S458752x2.ReducesTo [0, 1] S_
  bcast_S_S4096 : S_.BroadcastsInDim S4096 (![] : Fin 0 → Fin S4096.rank)
  reducesTo_S4096_S_d0 : S4096.ReducesTo [0] S_
  bcast_S_S14336 : S_.BroadcastsInDim S14336 (![] : Fin 0 → Fin S14336.rank)
  reducesTo_S14336_S_d0 : S14336.ReducesTo [0] S_

variable [Facts]

def fn_part1 {F : FTy → Type} [FloatOps F] (main_v13 : IVec S_ 1) (main_v16 : IVec S14336 1) : IVec S_ 1 :=
  let main_c_5 : IVec S_ 1 := constantI S_ 1 1#1
  let main_v17 : IVec S_ 1 := (fun x v => Host.reduce IntOp.andi x v reducesTo_S14336_S_d0 h_S_) main_v16 main_c_5
  let main_v18 : IVec S_ 1 := andi main_v13 main_v17
  main_v18

def fn {F : FTy → Type} [FloatOps F] (main_arg0 : FVec F S8x4096 .f32) (main_arg1 : IVec S14336x4096 32) (main_arg2 : FVec F S458752x2 .f32) (main_arg3 : FVec F S4096 .f32) (main_arg4 : FVec F S14336 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S458752x2 .f32 := Host.absf main_arg2
  let main_cst_0 : FVec F S_ .f32 := constant S_ .f32 0x7F800000#32
  let main_v5 : FVec F S458752x2 .f32 := broadcastInDim S458752x2 ![] bcast_S_S458752x2 main_cst_0
  let main_v6 : IVec S458752x2 1 := cmpf .olt main_v4 main_v5
  let main_c_1 : IVec S_ 1 := constantI S_ 1 1#1
  let main_v7 : IVec S_ 1 := (fun x v => Host.reduce IntOp.andi x v reducesTo_S458752x2_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S14336 .f32 := Host.absf main_arg4
  let main_cst_4 : FVec F S_ .f32 := constant S_ .f32 0x7F800000#32
  let main_v15 : FVec F S14336 .f32 := broadcastInDim S14336 ![] bcast_S_S14336 main_cst_4
  let main_v16 : IVec S14336 1 := cmpf .olt main_v14 main_v15
  fn_part1 (F := F) main_v13 main_v16
-- ==== Kernel.lean ====
abbrev S8x4096 : Shape := ⟨2, ![8, 4096]⟩
abbrev S14336x4096 : Shape := ⟨2, ![14336, 4096]⟩
abbrev S458752x2 : Shape := ⟨2, ![458752, 2]⟩
abbrev S4096 : Shape := ⟨1, ![4096]⟩
abbrev S14336 : Shape := ⟨1, ![14336]⟩
abbrev S14336x32x2 : Shape := ⟨3, ![14336, 32, 2]⟩
abbrev S14336x32x1 : Shape := ⟨3, ![14336, 32, 1]⟩
abbrev S14336x32 : Shape := ⟨2, ![14336, 32]⟩
abbrev S1x4096 : Shape := ⟨2, ![1, 4096]⟩
abbrev S1x14336 : Shape := ⟨2, ![1, 14336]⟩
abbrev S8x14336 : Shape := ⟨2, ![8, 14336]⟩
abbrev S512x4096 : Shape := ⟨2, ![512, 4096]⟩
abbrev S512x32 : Shape := ⟨2, ![512, 32]⟩
abbrev S1x512 : Shape := ⟨2, ![1, 512]⟩
abbrev S8x512 : Shape := ⟨2, ![8, 512]⟩
abbrev S8 : Shape := ⟨1, ![8]⟩
abbrev S8x1 : Shape := ⟨2, ![8, 1]⟩
abbrev S512x128 : Shape := ⟨2, ![512, 128]⟩
abbrev S512x1 : Shape := ⟨2, ![512, 1]⟩
abbrev S8x128 : Shape := ⟨2, ![8, 128]⟩

abbrev nBuf : Space → Nat
  | .hbm => 13
  | .vmem => 12
  | .smem => 0
  | _ => 0

abbrev bufTy : (tb : Table) → Fin (tcTables nBuf tb) → BufTy
  | .hbm, ⟨0, _⟩ => ⟨S8x4096, .f32⟩
  | .hbm, ⟨1, _⟩ => ⟨S14336x4096, .i32⟩
  | .hbm, ⟨2, _⟩ => ⟨S458752x2, .f32⟩
  | .hbm, ⟨3, _⟩ => ⟨S4096, .f32⟩
  | .hbm, ⟨4, _⟩ => ⟨S14336, .f32⟩
  | .hbm, ⟨5, _⟩ => ⟨S14336x32x2, .f32⟩
  | .hbm, ⟨6, _⟩ => ⟨S14336x32x1, .f32⟩
  | .hbm, ⟨7, _⟩ => ⟨S14336x32, .f32⟩
  | .hbm, ⟨8, _⟩ => ⟨S14336x32x1, .f32⟩
  | .hbm, ⟨9, _⟩ => ⟨S14336x32, .f32⟩
  | .hbm, ⟨10, _⟩ => ⟨S1x4096, .f32⟩
  | .hbm, ⟨11, _⟩ => ⟨S1x14336, .f32⟩
  | .hbm, ⟨12, _⟩ => ⟨S8x14336, .f32⟩
  | .local _ .vmem, ⟨0, _⟩ => ⟨S8x4096, .f32⟩
  | .local _ .vmem, ⟨1, _⟩ => ⟨S1x4096, .f32⟩
  | .local _ .vmem, ⟨2, _⟩ => ⟨S512x4096, .i32⟩
  | .local _ .vmem, ⟨3, _⟩ => ⟨S512x4096, .i32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S1x512, .f32⟩
  | .local _ .vmem, ⟨9, _⟩ => ⟨S1x512, .f32⟩
  | .local _ .vmem, ⟨10, _⟩ => ⟨S8x512, .f32⟩
  | .local _ .vmem, ⟨11, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S458752x2_S14336x32x2 : S458752x2.ShapeCasts S14336x32x2
  slices_S14336x32x2_S14336x32x1_0_0_0 : S14336x32x2.Slices ![0, 0, 0] S14336x32x1
  shapeCasts_S14336x32x1_S14336x32 : S14336x32x1.ShapeCasts S14336x32
  slices_S14336x32x2_S14336x32x1_0_0_1 : S14336x32x2.Slices ![0, 0, 1] S14336x32x1
  shapeCasts_S4096_S1x4096 : S4096.ShapeCasts S1x4096
  shapeCasts_S14336_S1x14336 : S14336.ShapeCasts S1x14336
  inb_S8x4096_S8x4096_0_0 : ∀ a, (![0, 0] : Fin 2 → Nat) a + S8x4096.size a ≤ S8x4096.size a
  h_S8x4096 : 0 < S8x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S8x4096_S8 : S8x4096.Reduces [1] S8
  shapeCasts_S8_S8x1 : S8.ShapeCasts S8x1
  broadcasts_S8x1_S8x4096 : S8x1.Broadcasts S8x4096
  broadcasts_S1x4096_S8x4096 : S1x4096.Broadcasts S8x4096
  bitsLt_bf16_f32 : FTy.bits .bf16 < FTy.bits .f32
  inb_S512x4096_S512x128_0_0 : ∀ a, (![0, 0] : Fin 2 → Nat) a + S512x128.size a ≤ S512x4096.size a
  h_S512x128 : 0 < S512x128.numel
  inb_S512x32_S512x1_0_0 : ∀ a, (![0, 0] : Fin 2 → Nat) a + S512x1.size a ≤ S512x32.size a
  h_S512x1 : 0 < S512x1.numel
  shapeCasts_S512x1_S512x1 : S512x1.ShapeCasts S512x1
  broadcasts_S512x1_S512x128 : S512x1.Broadcasts S512x128
  slices_S8x4096_o0_0_S8x128 : S8x4096.Slices ![0, 0] S8x128
  inb_S512x4096_S512x128_0_128 : ∀ a, (![0, 128] : Fin 2 → Nat) a + S512x128.size a ≤ S512x4096.size a
  inb_S512x32_S512x1_0_1 : ∀ a, (![0, 1] : Fin 2 → Nat) a + S512x1.size a ≤ S512x32.size a
  slices_S8x4096_o0_128_S8x128 : S8x4096.Slices ![0, 128] S8x128
  inb_S512x4096_S512x128_0_256 : ∀ a, (![0, 256] : Fin 2 → Nat) a + S512x128.size a ≤ S512x4096.size a
  inb_S512x32_S512x1_0_2 : ∀ a, (![0, 2] : Fin 2 → Nat) a + S512x1.size a ≤ S512x32.size a
  slices_S8x4096_o0_256_S8x128 : S8x4096.Slices ![0, 256] S8x128
  inb_S512x4096_S512x128_0_384 : ∀ a, (![0, 384] : Fin 2 → Nat) a + S512x128.size a ≤ S512x4096.size a
  inb_S512x32_S512x1_0_3 : ∀ a, (![0, 3] : Fin 2 → Nat) a + S512x1.size a ≤ S512x32.size a
  slices_S8x4096_o0_384_S8x128 : S8x4096.Slices ![0, 384] S8x128
  inb_S512x4096_S512x128_0_512 : ∀ a, (![0, 512] : Fin 2 → Nat) a + S512x128.size a ≤ S512x4096.size a
  inb_S512x32_S512x1_0_4 : ∀ a, (![0, 4] : Fin 2 → Nat) a + S512x1.size a ≤ S512x32.size a
  slices_S8x4096_o0_512_S8x128 : S8x4096.Slices ![0, 512] S8x128
  inb_S512x4096_S512x128_0_640 : ∀ a, (![0, 640] : Fin 2 → Nat) a + S512x128.size a ≤ S512x4096.size a
  inb_S512x32_S512x1_0_5 : ∀ a, (![0, 5] : Fin 2 → Nat) a + S512x1.size a ≤ S512x32.size a
  slices_S8x4096_o0_640_S8x128 : S8x4096.Slices ![0, 640] S8x128
  inb_S512x4096_S512x128_0_768 : ∀ a, (![0, 768] : Fin 2 → Nat) a + S512x128.size a ≤ S512x4096.size a
  inb_S512x32_S512x1_0_6 : ∀ a, (![0, 6] : Fin 2 → Nat) a + S512x1.size a ≤ S512x32.size a
  slices_S8x4096_o0_768_S8x128 : S8x4096.Slices ![0, 768] S8x128
  inb_S512x4096_S512x128_0_896 : ∀ a, (![0, 896] : Fin 2 → Nat) a + S512x128.size a ≤ S512x4096.size a
  inb_S512x32_S512x1_0_7 : ∀ a, (![0, 7] : Fin 2 → Nat) a + S512x1.size a ≤ S512x32.size a
  slices_S8x4096_o0_896_S8x128 : S8x4096.Slices ![0, 896] S8x128
  inb_S512x4096_S512x128_0_1024 : ∀ a, (![0, 1024] : Fin 2 → Nat) a + S512x128.size a ≤ S512x4096.size a
  inb_S512x32_S512x1_0_8 : ∀ a, (![0, 8] : Fin 2 → Nat) a + S512x1.size a ≤ S512x32.size a
  slices_S8x4096_o0_1024_S8x128 : S8x4096.Slices ![0, 1024] S8x128
  inb_S512x4096_S512x128_0_1152 : ∀ a, (![0, 1152] : Fin 2 → Nat) a + S512x128.size a ≤ S512x4096.size a
  inb_S512x32_S512x1_0_9 : ∀ a, (![0, 9] : Fin 2 → Nat) a + S512x1.size a ≤ S512x32.size a
  slices_S8x4096_o0_1152_S8x128 : S8x4096.Slices ![0, 1152] S8x128
  inb_S512x4096_S512x128_0_1280 : ∀ a, (![0, 1280] : Fin 2 → Nat) a + S512x128.size a ≤ S512x4096.size a
  inb_S512x32_S512x1_0_10 : ∀ a, (![0, 10] : Fin 2 → Nat) a + S512x1.size a ≤ S512x32.size a
  slices_S8x4096_o0_1280_S8x128 : S8x4096.Slices ![0, 1280] S8x128
  inb_S512x4096_S512x128_0_1408 : ∀ a, (![0, 1408] : Fin 2 → Nat) a + S512x128.size a ≤ S512x4096.size a
  inb_S512x32_S512x1_0_11 : ∀ a, (![0, 11] : Fin 2 → Nat) a + S512x1.size a ≤ S512x32.size a
  slices_S8x4096_o0_1408_S8x128 : S8x4096.Slices ![0, 1408] S8x128
  inb_S512x4096_S512x128_0_1536 : ∀ a, (![0, 1536] : Fin 2 → Nat) a + S512x128.size a ≤ S512x4096.size a
  inb_S512x32_S512x1_0_12 : ∀ a, (![0, 12] : Fin 2 → Nat) a + S512x1.size a ≤ S512x32.size a
  slices_S8x4096_o0_1536_S8x128 : S8x4096.Slices ![0, 1536] S8x128
  inb_S512x4096_S512x128_0_1664 : ∀ a, (![0, 1664] : Fin 2 → Nat) a + S512x128.size a ≤ S512x4096.size a
  inb_S512x32_S512x1_0_13 : ∀ a, (![0, 13] : Fin 2 → Nat) a + S512x1.size a ≤ S512x32.size a
  slices_S8x4096_o0_1664_S8x128 : S8x4096.Slices ![0, 1664] S8x128
  inb_S512x4096_S512x128_0_1792 : ∀ a, (![0, 1792] : Fin 2 → Nat) a + S512x128.size a ≤ S512x4096.size a
  inb_S512x32_S512x1_0_14 : ∀ a, (![0, 14] : Fin 2 → Nat) a + S512x1.size a ≤ S512x32.size a
  slices_S8x4096_o0_1792_S8x128 : S8x4096.Slices ![0, 1792] S8x128
  inb_S512x4096_S512x128_0_1920 : ∀ a, (![0, 1920] : Fin 2 → Nat) a + S512x128.size a ≤ S512x4096.size a
  inb_S512x32_S512x1_0_15 : ∀ a, (![0, 15] : Fin 2 → Nat) a + S512x1.size a ≤ S512x32.size a
  slices_S8x4096_o0_1920_S8x128 : S8x4096.Slices ![0, 1920] S8x128
  inb_S512x4096_S512x128_0_2048 : ∀ a, (![0, 2048] : Fin 2 → Nat) a + S512x128.size a ≤ S512x4096.size a
  inb_S512x32_S512x1_0_16 : ∀ a, (![0, 16] : Fin 2 → Nat) a + S512x1.size a ≤ S512x32.size a
  slices_S8x4096_o0_2048_S8x128 : S8x4096.Slices ![0, 2048] S8x128
  inb_S512x4096_S512x128_0_2176 : ∀ a, (![0, 2176] : Fin 2 → Nat) a + S512x128.size a ≤ S512x4096.size a
  inb_S512x32_S512x1_0_17 : ∀ a, (![0, 17] : Fin 2 → Nat) a + S512x1.size a ≤ S512x32.size a
  slices_S8x4096_o0_2176_S8x128 : S8x4096.Slices ![0, 2176] S8x128
  inb_S512x4096_S512x128_0_2304 : ∀ a, (![0, 2304] : Fin 2 → Nat) a + S512x128.size a ≤ S512x4096.size a
  inb_S512x32_S512x1_0_18 : ∀ a, (![0, 18] : Fin 2 → Nat) a + S512x1.size a ≤ S512x32.size a
  slices_S8x4096_o0_2304_S8x128 : S8x4096.Slices ![0, 2304] S8x128
  inb_S512x4096_S512x128_0_2432 : ∀ a, (![0, 2432] : Fin 2 → Nat) a + S512x128.size a ≤ S512x4096.size a
  inb_S512x32_S512x1_0_19 : ∀ a, (![0, 19] : Fin 2 → Nat) a + S512x1.size a ≤ S512x32.size a
  slices_S8x4096_o0_2432_S8x128 : S8x4096.Slices ![0, 2432] S8x128
  inb_S512x4096_S512x128_0_2560 : ∀ a, (![0, 2560] : Fin 2 → Nat) a + S512x128.size a ≤ S512x4096.size a
  inb_S512x32_S512x1_0_20 : ∀ a, (![0, 20] : Fin 2 → Nat) a + S512x1.size a ≤ S512x32.size a
  slices_S8x4096_o0_2560_S8x128 : S8x4096.Slices ![0, 2560] S8x128
  inb_S512x4096_S512x128_0_2688 : ∀ a, (![0, 2688] : Fin 2 → Nat) a + S512x128.size a ≤ S512x4096.size a
  inb_S512x32_S512x1_0_21 : ∀ a, (![0, 21] : Fin 2 → Nat) a + S512x1.size a ≤ S512x32.size a
  slices_S8x4096_o0_2688_S8x128 : S8x4096.Slices ![0, 2688] S8x128
  inb_S512x4096_S512x128_0_2816 : ∀ a, (![0, 2816] : Fin 2 → Nat) a + S512x128.size a ≤ S512x4096.size a
  inb_S512x32_S512x1_0_22 : ∀ a, (![0, 22] : Fin 2 → Nat) a + S512x1.size a ≤ S512x32.size a
  slices_S8x4096_o0_2816_S8x128 : S8x4096.Slices ![0, 2816] S8x128
  inb_S512x4096_S512x128_0_2944 : ∀ a, (![0, 2944] : Fin 2 → Nat) a + S512x128.size a ≤ S512x4096.size a
  inb_S512x32_S512x1_0_23 : ∀ a, (![0, 23] : Fin 2 → Nat) a + S512x1.size a ≤ S512x32.size a
  slices_S8x4096_o0_2944_S8x128 : S8x4096.Slices ![0, 2944] S8x128
  inb_S512x4096_S512x128_0_3072 : ∀ a, (![0, 3072] : Fin 2 → Nat) a + S512x128.size a ≤ S512x4096.size a
  inb_S512x32_S512x1_0_24 : ∀ a, (![0, 24] : Fin 2 → Nat) a + S512x1.size a ≤ S512x32.size a
  slices_S8x4096_o0_3072_S8x128 : S8x4096.Slices ![0, 3072] S8x128
  inb_S512x4096_S512x128_0_3200 : ∀ a, (![0, 3200] : Fin 2 → Nat) a + S512x128.size a ≤ S512x4096.size a
  inb_S512x32_S512x1_0_25 : ∀ a, (![0, 25] : Fin 2 → Nat) a + S512x1.size a ≤ S512x32.size a
  slices_S8x4096_o0_3200_S8x128 : S8x4096.Slices ![0, 3200] S8x128
  inb_S512x4096_S512x128_0_3328 : ∀ a, (![0, 3328] : Fin 2 → Nat) a + S512x128.size a ≤ S512x4096.size a
  inb_S512x32_S512x1_0_26 : ∀ a, (![0, 26] : Fin 2 → Nat) a + S512x1.size a ≤ S512x32.size a
  slices_S8x4096_o0_3328_S8x128 : S8x4096.Slices ![0, 3328] S8x128
  inb_S512x4096_S512x128_0_3456 : ∀ a, (![0, 3456] : Fin 2 → Nat) a + S512x128.size a ≤ S512x4096.size a
  inb_S512x32_S512x1_0_27 : ∀ a, (![0, 27] : Fin 2 → Nat) a + S512x1.size a ≤ S512x32.size a
  slices_S8x4096_o0_3456_S8x128 : S8x4096.Slices ![0, 3456] S8x128
  inb_S512x4096_S512x128_0_3584 : ∀ a, (![0, 3584] : Fin 2 → Nat) a + S512x128.size a ≤ S512x4096.size a
  inb_S512x32_S512x1_0_28 : ∀ a, (![0, 28] : Fin 2 → Nat) a + S512x1.size a ≤ S512x32.size a
  slices_S8x4096_o0_3584_S8x128 : S8x4096.Slices ![0, 3584] S8x128
  inb_S512x4096_S512x128_0_3712 : ∀ a, (![0, 3712] : Fin 2 → Nat) a + S512x128.size a ≤ S512x4096.size a
  inb_S512x32_S512x1_0_29 : ∀ a, (![0, 29] : Fin 2 → Nat) a + S512x1.size a ≤ S512x32.size a
  slices_S8x4096_o0_3712_S8x128 : S8x4096.Slices ![0, 3712] S8x128
  inb_S512x4096_S512x128_0_3840 : ∀ a, (![0, 3840] : Fin 2 → Nat) a + S512x128.size a ≤ S512x4096.size a
  inb_S512x32_S512x1_0_30 : ∀ a, (![0, 30] : Fin 2 → Nat) a + S512x1.size a ≤ S512x32.size a
  slices_S8x4096_o0_3840_S8x128 : S8x4096.Slices ![0, 3840] S8x128
  inb_S512x4096_S512x128_0_3968 : ∀ a, (![0, 3968] : Fin 2 → Nat) a + S512x128.size a ≤ S512x4096.size a
  inb_S512x32_S512x1_0_31 : ∀ a, (![0, 31] : Fin 2 → Nat) a + S512x1.size a ≤ S512x32.size a
  slices_S8x4096_o0_3968_S8x128 : S8x4096.Slices ![0, 3968] S8x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  dot_S8x128_S512x128_S8x512_1_1_0_0_n_n_wf : DotDims.WF S8x128 S512x128 S8x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S14336x4096.size a
  hwx0_2 : ∀ i : grid0.Coords, EltTy.bits .i32 = 32 ∨ (Rect.block (s := S14336x4096) S512x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S14336x32.size a
  hwx0_3 : ∀ i : grid0.Coords, EltTy.bits .f32 = 32 ∨ (Rect.block (s := S14336x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S14336x32.size a
  hwx0_4 : ∀ i : grid0.Coords, EltTy.bits .f32 = 32 ∨ (Rect.block (s := S14336x32) S512x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x14336.size a
  hwx0_5 : ∀ i : grid0.Coords, EltTy.bits .f32 = 32 ∨ (Rect.block (s := S1x14336) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S8x14336.size a
  hwx0_6 : ∀ i : grid0.Coords, EltTy.bits .f32 = 32 ∨ (Rect.block (s := S8x14336) S8x512.size (cc0_transform_6 i) (hinb0_6 i)).WholeWords (EltTy.packing .f32)

variable [Facts₀]

def dot_S8x128_S512x128_S8x512_1_1_0_0_n_n : DotDims S8x128 S512x128 S8x512 where
  lhsContracting := [1]
  rhsContracting := [1]
  lhsNonContracting := [0]
  rhsNonContracting := [0]
  lhsBatch := []
  rhsBatch := []
  wf := dot_S8x128_S512x128_S8x512_1_1_0_0_n_n_wf

abbrev win0_0 : Pipeline.Window sig grid0 :=
  Pipeline.Window.ofSpec (Memref.whole main_arg0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S8x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096 : Shape := ⟨2, ![8, 4096]⟩
abbrev S14336x4096 : Shape := ⟨2, ![14336, 4096]⟩
abbrev S458752x2 : Shape := ⟨2, ![458752, 2]⟩
abbrev S4096 : Shape := ⟨1, ![4096]⟩
abbrev S14336 : Shape := ⟨1, ![14336]⟩
abbrev S_ : Shape := ⟨0, ![]⟩
abbrev S8 : Shape := ⟨1, ![8]⟩
abbrev S8x1 : Shape := ⟨2, ![8, 1]⟩
abbrev S1x4096 : Shape := ⟨2, ![1, 4096]⟩
abbrev S14336x32x2 : Shape := ⟨3, ![14336, 32, 2]⟩
abbrev S14336x32x128 : Shape := ⟨3, ![14336, 32, 128]⟩
abbrev S14336x32x1 : Shape := ⟨3, ![14336, 32, 1]⟩
abbrev S8x14336 : Shape := ⟨2, ![8, 14336]⟩
abbrev S1x14336 : Shape := ⟨2, ![1, 14336]⟩

abbrev nBuf : Space → Nat
  | .hbm => 35
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S14336x4096, .i32⟩
  | .hbm, ⟨2, _⟩ => ⟨S458752x2, .f32⟩
  | .hbm, ⟨3, _⟩ => ⟨S4096, .f32⟩
  | .hbm, ⟨4, _⟩ => ⟨S14336, .f32⟩
  | .hbm, ⟨5, _⟩ => ⟨S8x4096, .f32⟩
  | .hbm, ⟨6, _⟩ => ⟨S_, .f32⟩
  | .hbm, ⟨7, _⟩ => ⟨S8, .f32⟩
  | .hbm, ⟨8, _⟩ => ⟨S8x1, .f32⟩
  | .hbm, ⟨9, _⟩ => ⟨S_, .f32⟩
  | .hbm, ⟨10, _⟩ => ⟨S8x1, .f32⟩
  | .hbm, ⟨11, _⟩ => ⟨S8x1, .f32⟩
  | .hbm, ⟨12, _⟩ => ⟨S_, .f32⟩
  | .hbm, ⟨13, _⟩ => ⟨S8x1, .f32⟩
  | .hbm, ⟨14, _⟩ => ⟨S8x1, .f32⟩
  | .hbm, ⟨15, _⟩ => ⟨S8x1, .f32⟩
  | .hbm, ⟨16, _⟩ => ⟨S8x4096, .f32⟩
  | .hbm, ⟨17, _⟩ => ⟨S8x4096, .f32⟩
  | .hbm, ⟨18, _⟩ => ⟨S1x4096, .f32⟩
  | .hbm, ⟨19, _⟩ => ⟨S8x4096, .f32⟩
  | .hbm, ⟨20, _⟩ => ⟨S8x4096, .f32⟩
  | .hbm, ⟨21, _⟩ => ⟨S14336x32x2, .f32⟩
  | .hbm, ⟨22, _⟩ => ⟨S14336x32x128, .i32⟩
  | .hbm, ⟨23, _⟩ => ⟨S14336x32x128, .f32⟩
  | .hbm, ⟨24, _⟩ => ⟨S14336x32x1, .f32⟩
  | .hbm, ⟨25, _⟩ => ⟨S14336x32x128, .f32⟩
  | .hbm, ⟨26, _⟩ => ⟨S14336x32x128, .f32⟩
  | .hbm, ⟨27, _⟩ => ⟨S14336x32x1, .f32⟩
  | .hbm, ⟨28, _⟩ => ⟨S14336x32x128, .f32⟩
  | .hbm, ⟨29, _⟩ => ⟨S14336x32x128, .f32⟩
  | .hbm, ⟨30, _⟩ => ⟨S14336x4096, .f32⟩
  | .hbm, ⟨31, _⟩ => ⟨S8x14336, .f32⟩
  | .hbm, ⟨32, _⟩ => ⟨S1x14336, .f32⟩
  | .hbm, ⟨33, _⟩ => ⟨S8x14336, .f32⟩
  | .hbm, ⟨34, _⟩ => ⟨S8x14336, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  reducesTo_S8x4096_S8_d1 : S8x4096.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4096_0_1 : S8x1.BroadcastsInDim S8x4096 (![0, 1] : Fin 2 → Fin S8x4096.rank)
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  shapeCasts_S458752x2_S14336x32x2 : S458752x2.ShapeCasts S14336x32x2
  shapeCasts_S14336x4096_S14336x32x128 : S14336x4096.ShapeCasts S14336x32x128
  slices_S14336x32x2_S14336x32x1_0_0_0 : S14336x32x2.Slices ![0, 0, 0] S14336x32x1
  bcast_S14336x32x1_S14336x32x128_0_1_2 : S14336x32x1.BroadcastsInDim S14336x32x128 (![0, 1, 2] : Fin 3 → Fin S14336x32x128.rank)
  slices_S14336x32x2_S14336x32x1_0_0_1 : S14336x32x2.Slices ![0, 0, 1] S14336x32x1
  shapeCasts_S14336x32x128_S14336x4096 : S14336x32x128.ShapeCasts S14336x4096
  bcast_S14336_S1x14336_1 : S14336.BroadcastsInDim S1x14336 (![1] : Fin 1 → Fin S1x14336.rank)
  bcast_S1x14336_S8x14336_0_1 : S1x14336.BroadcastsInDim S8x14336 (![0, 1] : Fin 2 → Fin S8x14336.rank)
  dot_S8x4096_S14336x4096_S8x14336_1_1_0_0_n_n_wf : DotDims.WF S8x4096 S14336x4096 S8x14336 [1] [1] [0] [0] [] []

variable [Facts₀]

def dot_S8x4096_S14336x4096_S8x14336_1_1_0_0_n_n : DotDims S8x4096 S14336x4096 S8x14336 where
  lhsContracting := [1]
  rhsContracting := [1]
  lhsNonContracting := [0]
  rhsNonContracting := [0]
  lhsBatch := []
  rhsBatch := []
  wf := dot_S8x4096_S14336x4096_S8x14336_1_1_0_0_n_n_wf

class Facts : Prop extends Facts₀ where

variable [Facts]
-- ==== Proof.Spec.lean ====
/-
  The function both programs compute, and the one law that joins them.

  For an activation `x : [8, 4096]`, integer weights `wq : [14336, 4096]`, per-(row, group) pairs
  `smv : [14336 · 32, 2]` (scale in column 0, minimum in column 1; a group is 128 consecutive
  columns), a gain `nw : [4096]` and a bias `[14336]`:

    rinv b   = rsqrt ((∑ k, x(b,k)²) / 4096 + ε)                  the row's reciprocal root mean square
    xn b i   = x(b,i) · rinv b · nw i                              the normalized activation
    wdq o i  = real(wq(o,i)) · smv(32·o + i/128, 0) + smv(32·o + i/128, 1)   the dequantized weight
    G (b,o)  = (∑ i, xn b i · wdq o i) + bias o

  The float literals `4096.0` and `ε` are kept as the words the two programs both print; they are
  never evaluated.

  The law: a sum over `Fin 4096` is the sum over the 32 groups of the sums over each group's 128
  columns (`sum_groups`): a re-indexing along `(g, k) ↦ 128·g + k`, valid in any commutative monoid,
  so on the extended reals it needs no finiteness.
-/
import Idealize.ShloMosaic.Lib.ValueIdx
import Idealize.ShloMosaic.PureOps.Ideal.Laws

noncomputable section

open scoped BigOperators

namespace Cert.QuantLinear

open Idealize.ShloMosaic Idealize.ShloMosaic.ValueIdx

/-! ## Columns and groups -/

/-- Column `c + k` of a 4096-column matrix (reduced mod 4096, so that it is a column for every `c`). -/
def colAt (c : ℕ) (k : Fin 128) : Fin 4096 := ⟨(c + k.val) % 4096, Nat.mod_lt _ (by decide)⟩

/-- Group `s` of the 32 groups (reduced mod 32, so that it is a group for every `s`). -/
def grpAt (s : ℕ) : Fin 32 := ⟨s % 32, Nat.mod_lt _ (by decide)⟩

theorem colAt_val {c : ℕ} (hc : c + 128 ≤ 4096) (k : Fin 128) : (colAt c k).val = c + k.val := by
  show (c + k.val) % 4096 = _
  have := k.isLt
  exact Nat.mod_eq_of_lt (by omega)

theorem grpAt_val {s : ℕ} (hs : s < 32) : (grpAt s).val = s := Nat.mod_eq_of_lt hs

/-- A column of group `g` lies in group `g`. -/
theorem colAt_div {g : ℕ} (hg : g < 32) (k : Fin 128) : (colAt (128 * g) k).val / 128 = g := by
  rw [colAt_val (by omega)]
  have := k.isLt
  omega

/-- THE LAW: a sum over the 4096 columns is the sum, over the 32 groups, of the sums over each
    group's 128 columns. -/
theorem sum_groups {M : Type*} [AddCommMonoid M] (f : Fin 4096 → M) :
    ∑ i, f i = ∑ g ∈ Finset.range 32, ∑ k : Fin 128, f (colAt (128 * g) k) := by
  rw [Finset.sum_range]
  have e : ∑ i : Fin 4096, f i = ∑ p : Fin 32 × Fin 128, f (finProdFinEquiv p) :=
    (Equiv.sum_comp (finProdFinEquiv (m := 32) (n := 128)) f).symm
  rw [e, Fintype.sum_prod_type]
  refine Finset.sum_congr rfl fun g _ => Finset.sum_congr rfl fun k _ => congrArg f (Fin.ext ?_)
  rw [colAt_val (by have := g.isLt; omega)]
  show k.val + 128 * g.val = 128 * g.val + k.val
  omega

/-! ## The result -/

abbrev SX : Shape := ⟨2, ![8, 4096]⟩
abbrev SW : Shape := ⟨2, ![14336, 4096]⟩
abbrev SP : Shape := ⟨2, ![458752, 2]⟩
abbrev SN : Shape := ⟨1, ![4096]⟩
abbrev SB : Shape := ⟨1, ![14336]⟩
abbrev SO : Shape := ⟨2, ![8, 14336]⟩

/-- Row `32·o + g` of the pair table: output row `o`'s pair for group `g`. -/
def pairRow (o : Fin 14336) (g : Fin 32) : Fin 458752 := ⟨o.val * 32 + g.val, by have := o.isLt; have := g.isLt; omega⟩

/-- The reciprocal root mean square of row `b` of the activation. -/
def rinv (x : SX.Idx → EReal) (b : Fin 8) : EReal :=
  Ideal.rsqrt (Ideal.div (∑ k : Fin 4096, x (ix2 b k) * x (ix2 b k)) (Ideal.ofBits .f32 0x45800000#32)
    + Ideal.ofBits .f32 0x358637BD#32)

/-- The normalized activation. -/
def xn (x : SX.Idx → EReal) (nw : SN.Idx → EReal) (b : Fin 8) (i : Fin 4096) : EReal :=
  x (ix2 b i) * rinv x b * nw (ix1 i)

/-- The scale and the minimum of output row `o` in group `g`. -/
def scaleOf (smv : SP.Idx → EReal) (o : Fin 14336) (g : Fin 32) : EReal := smv (ix2 (pairRow o g) 0)
def minOf (smv : SP.Idx → EReal) (o : Fin 14336) (g : Fin 32) : EReal := smv (ix2 (pairRow o g) 1)

/-- The dequantized weight at (o, i), from the scale and minimum of column `i`'s group. -/
def wdq (wq : SW.Idx → BitVec 32) (smv : SP.Idx → EReal) (o : Fin 14336) (i : Fin 4096) (g : Fin 32) : EReal :=
  FloatOps.sitofp (F := Ideal) .f32 (wq (ix2 o i)) * scaleOf smv o g + minOf smv o g

/-- The group of column `i`. -/
def grpOf (i : Fin 4096) : Fin 32 := ⟨i.val / 128, by have := i.isLt; omega⟩

/-- THE RESULT: the normalized activation against the dequantized weights, plus the bias. -/
def G (x : SX.Idx → EReal) (wq : SW.Idx → BitVec 32) (smv : SP.Idx → EReal) (nw : SN.Idx → EReal) (bias : SB.Idx → EReal) :
    SO.Idx → EReal :=
  fun j => (∑ i : Fin 4096, xn x nw (j 0) i * wdq wq smv (j 1) i (grpOf i)) + bias (ix1 (j 1))

/-- The same, group by group: what a kernel that walks the groups accumulates. -/
theorem G_groups (x : SX.Idx → EReal) (wq : SW.Idx → BitVec 32) (smv : SP.Idx → EReal) (nw : SN.Idx → EReal)
    (bias : SB.Idx → EReal) (j : SO.Idx) :
    G x wq smv nw bias j
      = (∑ g ∈ Finset.range 32, ∑ k : Fin 128,
          xn x nw (j 0) (colAt (128 * g) k) * wdq wq smv (j 1) (colAt (128 * g) k) (grpAt g)) + bias (ix1 (j 1)) := by
  unfold G
  rw [sum_groups]
  refine congrArg (· + _) (Finset.sum_congr rfl fun g hg => Finset.sum_congr rfl fun k _ => ?_)
  have hg' : g < 32 := Finset.mem_range.mp hg
  have e : grpOf (colAt (128 * g) k) = grpAt g := Fin.ext (by
    show (colAt (128 * g) k).val / 128 = (grpAt g).val
    rw [colAt_div hg', grpAt_val hg'])
  rw [e]

end Cert.QuantLinear

end
-- ==== Proof.LibRowRowDot.lean ====
/-
  A two-dimensional contraction of ROWS AGAINST ROWS read at an index. For dimension numbers that
  contract the last axis of BOTH operands and have no batch axes — the numbers of a product with a
  transposed right operand, `[n, d] × [h, d] → [n, h]` (einsum `bk,ok->bo`) — the sum over the
  contraction index, at the result index `j`, is the sum over `k : Fin d` of the left operand at
  `(j 0, k)` times the right operand at `(j 1, k)`: row `j 0` of the left matrix against row `j 1`
  of the right one (`rowRowDot`). Stated for ANY such dimension-number record, from equations naming
  its six lists, and for operands of any two float formats, so it serves a kernel's product on a
  block of rows and the host's product on a whole array alike.
-/
import Idealize.ShloMosaic.Lib.ValueIdx
import Idealize.ShloMosaic.PureOps.Ideal.Laws

noncomputable section

open scoped BigOperators

namespace Cert.LibRowRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against row `q` of `w`: `∑ k, a (r, k) · w (q, k)`. -/
def rowRowDot {n d h : ℕ} (a : Mat n d) (w : Mat h d) (r : Fin n) (q : Fin h) : EReal :=
  ∑ k : Fin d, a (ix2 r k) * w (ix2 q k)

section Transposed

variable {n d h : ℕ} (D : DotDims ⟨2, ![n, d]⟩ ⟨2, ![h, d]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the result's column coordinate. -/
theorem rhs_row (hln : D.lhsNonContracting = [0]) (hrn : D.rhsNonContracting = [0]) (hlb : D.lhsBatch = [])
    (hrb : D.rhsBatch = []) (j : (⟨2, ![n, h]⟩ : Shape).Idx) (k : D.contr.Idx) :
    (D.rhsIdx j k 0).val = (j 1).val := by
  have hb : (0 : Fin (⟨2, ![h, d]⟩ : Shape).rank) ∉ D.rhsBatch := by rw [hrb]; exact List.not_mem_nil
  have hn : (0 : Fin (⟨2, ![h, d]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- The right operand's column coordinate is the contraction index's one coordinate. -/
theorem rhs_col (hlc : D.lhsContracting = [1]) (hrc : D.rhsContracting = [1]) (j : (⟨2, ![n, h]⟩ : Shape).Idx)
    (k : D.contr.Idx) : (D.rhsIdx j k 1).val = (k ⟨0, by rw [contr_rank D hlc]; exact Nat.one_pos⟩).val :=
  D.rhsIdx_val_of_single hrc j k

/-- THE CONTRACTION AS A ROW AGAINST A ROW: the sum over the record's contraction index is `rowRowDot`. -/
theorem sum_contr_eq_rowRowDot (hlc : D.lhsContracting = [1]) (hrc : D.rhsContracting = [1])
    (hln : D.lhsNonContracting = [0]) (hrn : D.rhsNonContracting = [0]) (hlb : D.lhsBatch = [])
    (hrb : D.rhsBatch = []) (l : Mat n d) (r : Mat h d) (j : (⟨2, ![n, h]⟩ : Shape).Idx) :
    ∑ k : D.contr.Idx, l (D.lhsIdx j k) * r (D.rhsIdx j k) = rowRowDot l r (j 0) (j 1) := by
  unfold rowRowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 (j 1) k := by
    funext a; apply Fin.ext
    match a with
    | ⟨0, _⟩ => exact rhs_row D hln hrn hlb hrb _ _
    | ⟨1, _⟩ => exact (rhs_col D hlc hrc _ _).trans hk
  exact congrArg₂ (· * ·) (congrArg l el) (congrArg r er)

/-- A kernel's product into a zero accumulator, at the ideal values, read at an index; the operands
    may be of any two float formats (at the ideal values every format is the extended reals). -/
theorem matmul_zero_apply (hlc : D.lhsContracting = [1]) (hrc : D.rhsContracting = [1])
    (hln : D.lhsNonContracting = [0]) (hrn : D.rhsNonContracting = [0]) (hlb : D.lhsBatch = [])
    (hrb : D.rhsBatch = []) (prec : Option ContractPrecision) {φ₁ φ₂ : FTy} (l : FVec Ideal ⟨2, ![n, d]⟩ φ₁)
    (r : FVec Ideal ⟨2, ![h, d]⟩ φ₂) (j : (⟨2, ![n, h]⟩ : Shape).Idx) :
    FloatOps.matmul D prec l r (constant ⟨2, ![n, h]⟩ .f32 0x00000000#32) j = rowRowDot l r (j 0) (j 1) := by
  rw [Ideal.matmul_constant_zero_apply]
  exact sum_contr_eq_rowRowDot D hlc hrc hln hrn hlb hrb l r j

/-- The host's product, at the ideal values, read at an index. -/
theorem dotGeneral_apply (hlc : D.lhsContracting = [1]) (hrc : D.rhsContracting = [1])
    (hln : D.lhsNonContracting = [0]) (hrn : D.rhsNonContracting = [0]) (hlb : D.lhsBatch = [])
    (hrb : D.rhsBatch = []) (prec : Option ContractPrecision) (sched : HostSchedule) {φ₁ φ₂ : FTy}
    (l : FVec Ideal ⟨2, ![n, d]⟩ φ₁) (r : FVec Ideal ⟨2, ![h, d]⟩ φ₂) (j : (⟨2, ![n, h]⟩ : Shape).Idx) :
    FloatOps.dotGeneral D prec sched l r j = rowRowDot l r (j 0) (j 1) := by
  rw [Ideal.dotGeneral_apply]
  exact sum_contr_eq_rowRowDot D hlc hrc hln hrn hlb hrb l r j

end Transposed

end Cert.LibRowRowDot

end
-- ==== Proof.KernelGroup.lean ====
/-
  One group of the kernel's walk over the 32 groups, read at an index.

  For a group whose 128 columns start at column `c` and whose scale and minimum sit in column `s` of
  the two 512 × 32 tables, the kernel multiplies the 8 × 128 slice of the normalized activation at
  columns `c … c+127` with the 512 × 128 block of dequantized weights
  `real(W(q, c+k)) · S(q, s) + M(q, s)`, rows against rows, into zero. At the ideal values the
  narrowing to bf16 is the identity, so the entry (b, q) of that product is
    ∑ k < 128, XN(b, c+k) · (real(W(q, c+k)) · S(q, s) + M(q, s)).
-/
import proofs.«167626_j82162724372871_1_alg».proof.Proof.Gen.KernelIdeal.Skeleton
import proofs.«167626_j82162724372871_1_alg».proof.Proof.Spec
import proofs.«167626_j82162724372871_1_alg».proof.Proof.LibRowRowDot
import Idealize.ShloMosaic.Lib.Pipeline.Value
import Idealize.ShloMosaic.Lib.ValueLayout

noncomputable section

open scoped BigOperators

namespace Cert.QuantLinear

open Idealize.ShloMosaic Idealize.ShloMosaic.ValueIdx Cert.KernelIdeal Cert.KernelIdeal.Gen

/-- Entry (b, q) of one group's product: the slice of the activation against the dequantized block. -/
theorem group_apply (XN : FVec Ideal S8x4096 .bf16) (Wb : Vec Ideal S512x4096 .i32) (Sb Mb : Vec Ideal S512x32 .f32)
    (c s : ℕ) (hsl : S8x4096.Slices ![0, c] S8x128)
    (inbw : ∀ a, (![0, c] : Fin 2 → ℕ) a + S512x128.size a ≤ S512x4096.size a)
    (inbs : ∀ a, (![0, s] : Fin 2 → ℕ) a + S512x1.size a ≤ S512x32.size a)
    (sc : S512x1.ShapeCasts S512x1) (bc : S512x1.Broadcasts S512x128) (hlt : FTy.bf16.bits < FTy.f32.bits)
    (b : Fin 8) (q : Fin 512) :
    matmul dot_S8x128_S512x128_S8x512_1_1_0_0_n_n none (extractStridedSlice S8x128 ![0, c] XN hsl)
      (truncf .bf16 (addf (mulf (sitofp .f32 (View.ld Wb (Rect.unit (s := S512x4096) ![0, c] S512x128.size inbw)))
          (broadcastTo S512x128 (shapeCast S512x1 (View.ld Sb (Rect.unit (s := S512x32) ![0, s] S512x1.size inbs)) sc) bc))
        (broadcastTo S512x128 (shapeCast S512x1 (View.ld Mb (Rect.unit (s := S512x32) ![0, s] S512x1.size inbs)) sc) bc)) hlt)
      (constant S8x512 .f32 0x00000000#32) (ix2 b q)
    = ∑ k : Fin 128, XN (ix2 b (colAt c k))
        * (FloatOps.sitofp (F := Ideal) .f32 (Wb (ix2 q (colAt c k))) * Sb (ix2 q (grpAt s)) + Mb (ix2 q (grpAt s))) := by
  have hc : c + 128 ≤ 4096 := by have := inbw 1; simpa using this
  have hs : s < 32 := by have := inbs 1; simp at this; omega
  simp only [matmul]
  rw [LibRowRowDot.matmul_zero_apply _ rfl rfl rfl rfl rfl rfl]
  unfold LibRowRowDot.rowRowDot
  refine Finset.sum_congr rfl fun k _ => ?_
  have e1 : extractStridedSlice S8x128 ![0, c] XN hsl (ix2 b k) = XN (ix2 b (colAt c k)) :=
    extractStridedSlice_apply _ XN hsl (ix2 b k) (ix2 b (colAt c k)) (fun a => match a with
      | ⟨0, _⟩ => by show b.val = 0 + b.val; omega
      | ⟨1, _⟩ => by show (colAt c k).val = c + k.val; exact colAt_val hc k)
  have e2 : View.ld Wb (Rect.unit (s := S512x4096) ![0, c] S512x128.size inbw) (ix2 q k) = Wb (ix2 q (colAt c k)) :=
    congrArg Wb (funext fun a => Fin.ext (by
      match a with
      | ⟨0, _⟩ => show 0 + 1 * q.val = q.val; omega
      | ⟨1, _⟩ => show c + 1 * k.val = (colAt c k).val; rw [colAt_val hc]; omega))
  have e3 : ∀ X : Vec Ideal S512x32 .f32,
      broadcastTo S512x128 (shapeCast S512x1 (View.ld X (Rect.unit (s := S512x32) ![0, s] S512x1.size inbs)) sc) bc (ix2 q k)
        = X (ix2 q (grpAt s)) := fun X => by
    refine (broadcastTo_apply _ bc (ix2 q k) (ix2 q (0 : Fin 1)) (fun a => match a with
      | ⟨0, _⟩ => by show q.val = if (512 : ℕ) = 1 then 0 else q.val; rw [if_neg (by decide)]
      | ⟨1, _⟩ => by show 0 = if (1 : ℕ) = 1 then 0 else k.val; rw [if_pos rfl])).trans ?_
    refine (shapeCast_apply _ sc (ix2 q (0 : Fin 1)) (ix2 q (0 : Fin 1)) rfl).trans ?_
    exact congrArg X (funext fun a => Fin.ext (by
      match a with
      | ⟨0, _⟩ => show 0 + 1 * q.val = q.val; omega
      | ⟨1, _⟩ => show s + 1 * 0 = (grpAt s).val; rw [grpAt_val hs]; omega))
  show extractStridedSlice S8x128 ![0, c] XN hsl (ix2 b k)
      * (FloatOps.sitofp (F := Ideal) .f32 (View.ld Wb (Rect.unit (s := S512x4096) ![0, c] S512x128.size inbw) (ix2 q k))
          * broadcastTo S512x128 (shapeCast S512x1 (View.ld Sb (Rect.unit (s := S512x32) ![0, s] S512x1.size inbs)) sc) bc (ix2 q k)
        + broadcastTo S512x128 (shapeCast S512x1 (View.ld Mb (Rect.unit (s := S512x32) ![0, s] S512x1.size inbs)) sc) bc (ix2 q k)) = _
  rw [e1, e2, e3 Sb, e3 Mb]

end Cert.QuantLinear

end
-- ==== Proof.KernelBlock.lean ====
/-
  What the kernel's body leaves in its 8 × 512 output block, read at an index.

  The body normalizes the activation once (`k0_pay2`: x · rsqrt(mean x² + ε) · gain, narrowed to
  bf16, which is the identity at the ideal values), then walks the 32 groups: from the zero block it
  adds, group after group, the product of the group's 128 activation columns with the group's
  dequantized 512 × 128 weight block (rows against rows), and finally adds the bias row. Entry
  (b, q) of the result is therefore
    (∑ g < 32, ∑ k < 128, XN(b, 128 g + k) · (real(W(q, 128 g + k)) · S(q, g) + M(q, g))) + bias(q),
  the groups summed in the order the kernel visits them (`block_apply`), and XN(b, i) is
  x(b,i) · rinv(b) · gain(i) (`normalized_apply`).
-/
import proofs.«167626_j82162724372871_1_alg».proof.Proof.Gen.KernelIdeal.Frame
import proofs.«167626_j82162724372871_1_alg».proof.Proof.KernelGroup

set_option maxRecDepth 16384

noncomputable section

open scoped BigOperators

namespace Cert.QuantLinear

open Idealize.ShloMosaic Idealize.ShloMosaic.ValueIdx Cert.KernelIdeal Cert.KernelIdeal.Gen

/-- The zero offsets, however they are spelt. -/
theorem hz : (![0, 0] : Fin 2 → Nat) = fun _ => 0 := funext fun a => by fin_cases a <;> rfl

/-- The accumulator starts at zero. -/
theorem zero_splat_apply (j : S8x512.Idx) : broadcast S8x512 (Scalar.ofBits (F := Ideal) .f32 0x00000000#32) j = 0 :=
  Ideal.ofBits_zero_f32

/-- The bias row, broadcast over the 8 rows. -/
theorem bias_apply (x5 : Vec Ideal S1x512 .f32) (sc : S1x512.ShapeCasts S1x512) (bc : S1x512.Broadcasts S8x512) (b : Fin 8) (q : Fin 512) :
    broadcastTo S8x512 (shapeCast S1x512 x5 sc) bc (ix2 b q) = x5 (ix2 (0 : Fin 1) q) := by
  rw [shapeCast_self]
  exact broadcastTo_apply _ bc (ix2 b q) (ix2 (0 : Fin 1) q) (fun a => match a with
    | ⟨0, _⟩ => by show 0 = if (1 : ℕ) = 1 then 0 else b.val; rw [if_pos rfl]
    | ⟨1, _⟩ => by show q.val = if (512 : ℕ) = 1 then 0 else q.val; rw [if_neg (by decide)])

/-- The normalized activation at (b, i): the entry times its row's reciprocal root mean square times the gain. -/
theorem normalized_apply (v0 : Vec Ideal S8x4096 .f32) (v1 : Vec Ideal S1x4096 .f32) (b : Fin 8) (i : Fin 4096) :
    k0_pay2 (F := Ideal) v0 v1 (ix2 b i) = v0 (ix2 b i) * rinv v0 b * v1 (ix2 (0 : Fin 1) i) := by
  unfold k0_pay2
  show (v0 (ix2 b i) * (broadcastTo S8x4096 _ broadcasts_S8x1_S8x4096 (ix2 b i))) * (broadcastTo S8x4096 _ broadcasts_S1x4096_S8x4096 (ix2 b i)) = _
  rw [broadcastTo_apply _ broadcasts_S8x1_S8x4096 (ix2 b i) (ix2 b (0 : Fin 1)) (fun a => match a with
      | ⟨0, _⟩ => by show b.val = if (8 : ℕ) = 1 then 0 else b.val; rw [if_neg (by decide)]
      | ⟨1, _⟩ => by show 0 = if (1 : ℕ) = 1 then 0 else i.val; rw [if_pos rfl]),
    broadcastTo_apply _ broadcasts_S1x4096_S8x4096 (ix2 b i) (ix2 (0 : Fin 1) i) (fun a => match a with
      | ⟨0, _⟩ => by show 0 = if (1 : ℕ) = 1 then 0 else b.val; rw [if_pos rfl]
      | ⟨1, _⟩ => by show i.val = if (4096 : ℕ) = 1 then 0 else i.val; rw [if_neg (by decide)]),
    shapeCast_self]
  refine congrArg (v0 (ix2 b i) * · * v1 (ix2 (0 : Fin 1) i)) ?_
  unfold rinv
  show Ideal.rsqrt (Ideal.div (shapeCast S8x1 _ shapeCasts_S8_S8x1 (ix2 b (0 : Fin 1)))
      (Ideal.ofBits .f32 0x45800000#32) + Ideal.ofBits .f32 0x358637BD#32) = _
  rw [shapeCast_apply _ shapeCasts_S8_S8x1 (ix2 b (0 : Fin 1)) (ix1 b) (by
      rw [Shape.rowMajor_val_one, Shape.rowMajor_val_two]; show b.val = b.val * 1 + 0; omega),
    ]
  refine congrArg (fun z => Ideal.rsqrt (Ideal.div z (Ideal.ofBits .f32 0x45800000#32) + Ideal.ofBits .f32 0x358637BD#32)) ?_
  refine (Ideal.multiReduction_add_single (mulf v0 v0) 0x00000000#32 reduces_S8x4096_S8 _ _ (ix1 b)).trans ?_
  refine Finset.sum_congr rfl fun k _ => ?_
  have e : reduces_S8x4096_S8.lift (ix1 b) k = ix2 b k :=
    funext fun a => Fin.ext (by match a with | ⟨0, _⟩ => rfl | ⟨1, _⟩ => rfl)
  show v0 (reduces_S8x4096_S8.lift (ix1 b) k) * v0 (reduces_S8x4096_S8.lift (ix1 b) k) = _
  rw [e]
  rfl

/-- Entry (b, q) of the body's result: the 32 group sums from zero, in the kernel's order, plus the bias. -/
theorem block_apply (x0 : Vec Ideal S8x4096 .f32) (x1 : Vec Ideal S1x4096 .f32) (x2 : Vec Ideal S512x4096 .i32)
    (x3 x4 : Vec Ideal S512x32 .f32) (x5 : Vec Ideal S1x512 .f32) (b : Fin 8) (q : Fin 512) :
    out0_6 x0 x1 x2 x3 x4 x5 (ix2 b q)
      = (∑ g ∈ Finset.range 32, ∑ k : Fin 128, k0_pay2 x0 x1 (ix2 b (colAt (128 * g) k))
          * (FloatOps.sitofp (F := Ideal) .f32 (x2 (ix2 q (colAt (128 * g) k))) * x3 (ix2 q (grpAt g)) + x4 (ix2 q (grpAt g))))
        + x5 (ix2 (0 : Fin 1) q) := by
  unfold out0_6
  rw [View.canon_unit_zero hz]
  simp only [View.ld_unit_zero (S := S8x4096) hz, View.ld_unit_zero (S := S1x4096) hz, View.ld_unit_zero (S := S1x512) hz]
  simp only [Finset.sum_range_succ, Finset.sum_range_zero, Nat.reduceMul]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  simp only [addf_apply, zero_splat_apply, bias_apply, group_apply]
  exact congrArg₂ (· + ·) rfl (bias_apply x5 _ _ b q)

end Cert.QuantLinear

end
-- ==== Proof.KernelValue.lean ====
/-
  The kernel's output array after the run is `G` of its arguments.

  The host operations before the region only re-lay arguments: the gain and the bias become rows, and
  the pair table [458752, 2] is split into a 14336 × 32 table of scales (column 0) and one of minima
  (column 1), row o and group g holding pair 32·o + g (`gain_apply`, `biasrow_apply`, `scale_apply`,
  `min_apply`: row-major re-indexings).

  The grid has 28 points. At point t the activation and gain windows show their whole arrays, the
  weight, scale and minimum windows show rows 512 t … 512 t + 511, and the bias and output windows
  columns 512 t … 512 t + 511 (`idx_facts`, decided over the grid, and the block reads after it). So
  what point t writes back — the body's result on those blocks, 32 group sums plus the bias — is,
  entry by entry, `G` at (b, 512 t + q) written group by group (`flushed_eq`, by `G_groups`).
  Column o of the output lies in the block of point o / 512, so the blocks cover the array (`cover`)
  and the array after the last point is `G` (`final`); `kernel_run` is the run re-posted with it.
-/
import proofs.«167626_j82162724372871_1_alg».proof.Proof.Gen.KernelIdeal.Value
import proofs.«167626_j82162724372871_1_alg».proof.Proof.KernelBlock
import Idealize.ShloMosaic.Lib.StableHlo.Run

set_option maxRecDepth 16384

noncomputable section

open scoped BigOperators

namespace Cert.QuantLinear

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg)

/-! ## The arrays the host operations prepare, read at an index -/

/-- The gain as a 1 × 4096 row. -/
theorem gain_apply (c : Dev nD) (i : Fin 4096) :
    V m c main_v5 (ix2 (0 : Fin 1) i) = m ((c : Thread nD τ).loc main_arg3) (ix1 i) := by
  have e : (V m c main_v5 : S1x4096.Idx → EReal)
      = shapeCast S1x4096 (m ((c : Thread nD τ).loc main_arg3)) shapeCasts_S4096_S1x4096 := by
    dsimp only [Gen.V, Gen.hostOps0]; after_results; rfl
  exact (congrFun e _).trans (shapeCast_apply _ _ (ix2 (0 : Fin 1) i) (ix1 i) (by
    rw [Shape.rowMajor_val_one, Shape.rowMajor_val_two]; show i.val = 0 * 4096 + i.val; omega))

/-- The bias as a 1 × 14336 row. -/
theorem biasrow_apply (c : Dev nD) (o : Fin 14336) :
    V m c main_v6 (ix2 (0 : Fin 1) o) = m ((c : Thread nD τ).loc main_arg4) (ix1 o) := by
  have e : (V m c main_v6 : S1x14336.Idx → EReal)
      = shapeCast S1x14336 (m ((c : Thread nD τ).loc main_arg4)) shapeCasts_S14336_S1x14336 := by
    dsimp only [Gen.V, Gen.hostOps0]; after_results; rfl
  exact (congrFun e _).trans (shapeCast_apply _ _ (ix2 (0 : Fin 1) o) (ix1 o) (by
    rw [Shape.rowMajor_val_one, Shape.rowMajor_val_two]; show o.val = 0 * 14336 + o.val; omega))

/-- Column `p` of the pair table, laid out as a 14336 × 32 table: row o, group g is pair 32·o + g. -/
theorem pair_apply (p : Fin 2) (off : Fin 3 → ℕ) (hoff : off = ![0, 0, p.val]) (hsl : S14336x32x2.Slices off S14336x32x1)
    (x2 : S458752x2.Idx → EReal) (o : Fin 14336) (g : Fin 32) :
    shapeCast S14336x32 (extractStridedSlice S14336x32x1 off
        (shapeCast S14336x32x2 x2 shapeCasts_S458752x2_S14336x32x2) hsl) shapeCasts_S14336x32x1_S14336x32 (ix2 o g)
      = x2 (ix2 (pairRow o g) p) := by
  subst hoff
  refine (shapeCast_apply _ _ (ix2 o g) (ix3 o g (0 : Fin 1)) (by
    rw [Shape.rowMajor_val_three, Shape.rowMajor_val_two]; show (o.val * 32 + g.val) * 1 + 0 = o.val * 32 + g.val; omega)).trans ?_
  refine (extractStridedSlice_apply _ _ hsl (ix3 o g (0 : Fin 1)) (ix3 o g p) (fun a => match a with
    | ⟨0, _⟩ => by show o.val = 0 + o.val; omega
    | ⟨1, _⟩ => by show g.val = 0 + g.val; omega
    | ⟨2, _⟩ => by show p.val = p.val + 0; omega)).trans ?_
  exact shapeCast_apply _ _ (ix3 o g p) (ix2 (pairRow o g) p) (by
    rw [Shape.rowMajor_val_two, Shape.rowMajor_val_three]; rfl)

theorem scale_apply (c : Dev nD) (o : Fin 14336) (g : Fin 32) :
    V m c main_v2 (ix2 o g) = m ((c : Thread nD τ).loc main_arg2) (ix2 (pairRow o g) (0 : Fin 2)) := by
  have e : (V m c main_v2 : S14336x32.Idx → EReal)
      = shapeCast S14336x32 (extractStridedSlice S14336x32x1 ![0, 0, 0]
          (shapeCast S14336x32x2 (m ((c : Thread nD τ).loc main_arg2)) shapeCasts_S458752x2_S14336x32x2)
          slices_S14336x32x2_S14336x32x1_0_0_0) shapeCasts_S14336x32x1_S14336x32 := by
    dsimp only [Gen.V, Gen.hostOps0]; after_results; rfl
  exact (congrFun e _).trans (pair_apply 0 _ rfl _ _ o g)

theorem min_apply (c : Dev nD) (o : Fin 14336) (g : Fin 32) :
    V m c main_v4 (ix2 o g) = m ((c : Thread nD τ).loc main_arg2) (ix2 (pairRow o g) (1 : Fin 2)) := by
  have e : (V m c main_v4 : S14336x32.Idx → EReal)
      = shapeCast S14336x32 (extractStridedSlice S14336x32x1 ![0, 0, 1]
          (shapeCast S14336x32x2 (m ((c : Thread nD τ).loc main_arg2)) shapeCasts_S458752x2_S14336x32x2)
          slices_S14336x32x2_S14336x32x1_0_0_1) shapeCasts_S14336x32x1_S14336x32 := by
    dsimp only [Gen.V, Gen.hostOps0]; after_results; rfl
  exact (congrFun e _).trans (pair_apply 1 _ rfl _ _ o g)

/-! ## The index maps, decided over the 28 grid points -/

/-- Windows 0 and 1 (activation, gain) stay at block (0, 0); windows 2, 3 and 4 (weights, scales, minima) move down
    their rows with the point; windows 5 and 6 (bias, output) move along their columns with it. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

theorem point_lt (t : Fin cfg0.N) : t.val < 28 := lt_of_lt_of_eq t.isLt N_0

/-- Output row `512 t + q`: row `q` of the block of point `t`. -/
def outRow (t : Fin cfg0.N) (q : Fin 512) : Fin 14336 := ⟨t.val * 512 + q.val, by have := point_lt t; have := q.isLt; omega⟩

/-! ## The input blocks at a point, read through their windows -/

/-- The activation's block is the whole activation. -/
theorem xblk_eq (c : Dev nD) (t : Fin cfg0.N) :
    (iblk m c 0 t : S8x4096.Idx → EReal) = m ((c : Thread nD τ).loc main_arg0) := by
  obtain ⟨e0, e1, -⟩ := idx_facts t
  funext j
  show V m c main_arg0 (((cfg0.win 0).blk t).view.emb j) = _
  rw [V_main_arg0]
  refine congrArg _ (funext fun a => Fin.ext ?_)
  match a with
  | ⟨0, _⟩ => show win0_0.index t (0 : Fin 2) * 8 + 1 * (j 0).val = (j 0).val; omega
  | ⟨1, _⟩ => show win0_0.index t (1 : Fin 2) * 4096 + 1 * (j 1).val = (j 1).val; omega

/-- The gain's block is the whole gain row. -/
theorem gainblk_apply (c : Dev nD) (t : Fin cfg0.N) (i : Fin 4096) :
    iblk m c 1 t (ix2 (0 : Fin 1) i) = m ((c : Thread nD τ).loc main_arg3) (ix1 i) := by
  obtain ⟨-, -, e2, e3, -⟩ := idx_facts t
  refine Eq.trans ?_ (gain_apply m c i)
  show V m c main_v5 (((cfg0.win 1).blk t).view.emb (ix2 (0 : Fin 1) i)) = _
  refine congrArg _ (funext fun a => Fin.ext ?_)
  match a with
  | ⟨0, _⟩ => show win0_1.index t (0 : Fin 2) * 1 + 1 * 0 = 0; omega
  | ⟨1, _⟩ => show win0_1.index t (1 : Fin 2) * 4096 + 1 * i.val = i.val; omega

/-- Row `q` of the weights' block at point `t` is row `512 t + q` of the weights. -/
theorem wblk_apply (c : Dev nD) (t : Fin cfg0.N) (q : Fin 512) (i : Fin 4096) :
    iblk m c 2 t (ix2 q i) = m ((c : Thread nD τ).loc main_arg1) (ix2 (outRow t q) i) := by
  obtain ⟨-, -, -, -, e4, e5, -⟩ := idx_facts t
  show V m c main_arg1 (((cfg0.win 2).blk t).view.emb (ix2 q i)) = _
  rw [V_main_arg1]
  refine congrArg _ (funext fun a => Fin.ext ?_)
  match a with
  | ⟨0, _⟩ => show win0_2.index t (0 : Fin 2) * 512 + 1 * q.val = t.val * 512 + q.val; omega
  | ⟨1, _⟩ => show win0_2.index t (1 : Fin 2) * 4096 + 1 * i.val = i.val; omega

/-- Row `q` of the scales' block at point `t` holds the scales of output row `512 t + q`. -/
theorem sblk_apply (c : Dev nD) (t : Fin cfg0.N) (q : Fin 512) (g : Fin 32) :
    iblk m c 3 t (ix2 q g) = scaleOf (m ((c : Thread nD τ).loc main_arg2)) (outRow t q) g := by
  obtain ⟨-, -, -, -, -, -, e6, e7, -⟩ := idx_facts t
  refine Eq.trans ?_ (scale_apply m c (outRow t q) g)
  show V m c main_v2 (((cfg0.win 3).blk t).view.emb (ix2 q g)) = _
  refine congrArg _ (funext fun a => Fin.ext ?_)
  match a with
  | ⟨0, _⟩ => show win0_3.index t (0 : Fin 2) * 512 + 1 * q.val = t.val * 512 + q.val; omega
  | ⟨1, _⟩ => show win0_3.index t (1 : Fin 2) * 32 + 1 * g.val = g.val; omega

/-- Row `q` of the minima's block at point `t` holds the minima of output row `512 t + q`. -/
theorem mblk_apply (c : Dev nD) (t : Fin cfg0.N) (q : Fin 512) (g : Fin 32) :
    iblk m c 4 t (ix2 q g) = minOf (m ((c : Thread nD τ).loc main_arg2)) (outRow t q) g := by
  obtain ⟨-, -, -, -, -, -, -, -, e8, e9, -⟩ := idx_facts t
  refine Eq.trans ?_ (min_apply m c (outRow t q) g)
  show V m c main_v4 (((cfg0.win 4).blk t).view.emb (ix2 q g)) = _
  refine congrArg _ (funext fun a => Fin.ext ?_)
  match a with
  | ⟨0, _⟩ => show win0_4.index t (0 : Fin 2) * 512 + 1 * q.val = t.val * 512 + q.val; omega
  | ⟨1, _⟩ => show win0_4.index t (1 : Fin 2) * 32 + 1 * g.val = g.val; omega

/-- Column `q` of the bias's block at point `t` is the bias of output row `512 t + q`. -/
theorem biasblk_apply (c : Dev nD) (t : Fin cfg0.N) (q : Fin 512) :
    iblk m c 5 t (ix2 (0 : Fin 1) q) = m ((c : Thread nD τ).loc main_arg4) (ix1 (outRow t q)) := by
  obtain ⟨-, -, -, -, -, -, -, -, -, -, e10, e11, -⟩ := idx_facts t
  refine Eq.trans ?_ (biasrow_apply m c (outRow t q))
  show V m c main_v6 (((cfg0.win 5).blk t).view.emb (ix2 (0 : Fin 1) q)) = _
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * q.val = t.val * 512 + q.val; omega

/-! ## What a point writes back is its block of `G` -/

/-- `G` of the five arguments as the kernel is launched with them. -/
abbrev Gk (c : Dev nD) : S8x14336.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (c : Dev nD) (t : Fin cfg0.N) :
    (dats m 0 c).flushed 6 t = ((cfg0.win 6).blk t).view.read (Elt Ideal) (Gk m c) := by
  rw [Cert.KernelIdeal.Value.flushed6]
  obtain ⟨-, -, -, -, -, -, -, -, -, -, -, -, e12, e13⟩ := idx_facts t
  funext (j : S8x512.Idx)
  obtain ⟨b, q, rfl⟩ : ∃ (b : Fin 8) (q : Fin 512), j = ix2 b q := ⟨j 0, j 1, eq_ix2 j⟩
  have hemb : ((cfg0.win 6).blk t).view.emb (ix2 b q) = ix2 b (outRow t q) := funext fun a => Fin.ext (by
    match a with
    | ⟨0, _⟩ => show win0_6.index t (0 : Fin 2) * 8 + 1 * b.val = b.val; omega
    | ⟨1, _⟩ => show win0_6.index t (1 : Fin 2) * 512 + 1 * q.val = t.val * 512 + q.val; omega)
  show out0_6 (iblk m c 0 t) (iblk m c 1 t) (iblk m c 2 t) (iblk m c 3 t) (iblk m c 4 t) (iblk m c 5 t) (ix2 b q)
    = Gk m c (((cfg0.win 6).blk t).view.emb (ix2 b q))
  rw [hemb]
  refine (block_apply (iblk m c 0 t) (iblk m c 1 t) (iblk m c 2 t) (iblk m c 3 t) (iblk m c 4 t) (iblk m c 5 t) b q).trans ?_
  refine Eq.trans ?_ (G_groups _ _ _ _ _ (ix2 b (outRow t q))).symm
  refine congrArg₂ (· + ·) (Finset.sum_congr rfl fun g _ => Finset.sum_congr rfl fun k _ => congrArg₂ (· * ·) ?_ ?_)
    (biasblk_apply m c t q)
  · refine (normalized_apply (iblk m c 0 t) (iblk m c 1 t) b _).trans ?_
    rw [xblk_eq, gainblk_apply]
    rfl
  · rw [wblk_apply, sblk_apply, mblk_apply]
    rfl

/-! ## The blocks cover the array -/

/-- An index of the output array is in point `t`'s block iff each coordinate is in the block's range on its axis. -/
theorem mem_blk (t : Fin cfg0.N) (i : S8x14336.Idx) :
    i ∈ ((cfg0.win 6).blk t).view.set ↔ ∀ a : Fin 2, win0_6.index t a * S8x512.size a ≤ (i a).val ∧ (i a).val < win0_6.index t a * S8x512.size a + S8x512.size a := by
  show i ∈ ((View.whole main_v7).slice (win0_6.rect t)).set ↔ _
  rw [View.set_slice_whole, Rect.mem_set_unit]
  exact Iff.rfl

/-- Column `o` of the output lies in the block of point `o / 512`. -/
theorem cover (i : S8x14336.Idx) :
    ∃ t : Fin cfg0.N, (cfg0.win 6).flush t = true ∧ i ∈ ((cfg0.win 6).blk t).view.set := by
  have hi0 : (i 0).val < 8 := (i 0).isLt
  have hi1 : (i 1).val < 14336 := (i 1).isLt
  have hN : (i 1).val / 512 < cfg0.N := by rw [show cfg0.N = 28 from N_0]; omega
  obtain ⟨-, -, -, -, -, -, -, -, -, -, -, -, e12, e13⟩ := idx_facts ⟨(i 1).val / 512, hN⟩
  refine ⟨⟨(i 1).val / 512, hN⟩, flush0_6 _, ?_⟩
  rw [mem_blk]
  intro a
  match a with
  | ⟨0, _⟩ =>
    show win0_6.index ⟨(i 1).val / 512, hN⟩ (0 : Fin 2) * 8 ≤ (i 0).val ∧ (i 0).val < win0_6.index ⟨(i 1).val / 512, hN⟩ (0 : Fin 2) * 8 + 8
    omega
  | ⟨1, _⟩ =>
    show win0_6.index ⟨(i 1).val / 512, hN⟩ (1 : Fin 2) * 512 ≤ (i 1).val ∧ (i 1).val < win0_6.index ⟨(i 1).val / 512, hN⟩ (1 : Fin 2) * 512 + 512
    have e13' : win0_6.index ⟨(i 1).val / 512, hN⟩ (1 : Fin 2) = (i 1).val / 512 := e13
    omega

/-! ## The output array after the run, and the run -/

/-- After the last point the output array is `G` of the arguments. -/
theorem final (c : Dev nD) : (dats m 0 c).arrAt 6 cfg0.N = Gk m c :=
  (dats m 0 c).arrAt_eq_of_cover 6 (Gk m c) (fun t _ => flushed_eq m c t) cover

/-- The kernel's run: it terminates, leaves `G` of the arguments in the result array, and the arguments unchanged. -/
theorem kernel_run : θ_run defs (onTc (τ := τ) (main (F := Ideal))) ⟨m, fun _ => 0, ρ⟩ fun r => ∀ c : Dev nD,
      r.2.mem ((c : Thread nD τ).loc main_v7) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.QuantLinear

end
-- ==== Proof.RefValue.lean ====
/-
  The reference program computes `G`.

  Read one operation at a time (the generated reading of its run), entry (b, o) of the reference's
  result is the host's contraction over the 4096 columns of the normalized activation against the
  dequantized weights, plus the bias: the normalized activation at (b, k) is
  x(b,k) · rsqrt((0 + ∑ x(b,·)²) / 4096 + ε) · gain(k) — the reduction's initial value is the zero
  word — and the dequantized weight at (o, k) is read through the reshapes
  [14336, 4096] → [14336, 32, 128] → [14336, 4096] and [458752, 2] → [14336, 32, 2], which send
  column k of row o to group k / 128 of that row, whose pair is row 32·o + k/128 of the pair table.
  The reshapes are row-major re-indexings, so each index equation is arithmetic with / and %.
-/
import proofs.«167626_j82162724372871_1_alg».proof.Proof.Gen.ReferenceIdeal.Read
import proofs.«167626_j82162724372871_1_alg».proof.Proof.Spec

noncomputable section

open scoped BigOperators

namespace Cert.QuantLinear

open Idealize.ShloMosaic Idealize.ShloMosaic.ValueIdx Cert.ReferenceIdeal Cert.ReferenceIdeal.Read

/-- The reference's result, as a function of its five arguments, is `G`. -/
theorem reference_eq (x0 : (⟨S8x4096, .f32⟩ : BufTy).Contents (Elt Ideal)) (x1 : (⟨S14336x4096, .i32⟩ : BufTy).Contents (Elt Ideal))
    (x2 : (⟨S458752x2, .f32⟩ : BufTy).Contents (Elt Ideal)) (x3 : (⟨S4096, .f32⟩ : BufTy).Contents (Elt Ideal))
    (x4 : (⟨S14336, .f32⟩ : BufTy).Contents (Elt Ideal)) :
    val_main_v26 (F := Ideal) x0 x1 x2 x3 x4 = G x0 x1 x2 x3 x4 := by
  funext j
  obtain ⟨b, o, rfl⟩ : ∃ (b : Fin 8) (o : Fin 14336), j = ix2 b o := ⟨j 0, j 1, eq_ix2 j⟩
  rw [val_main_v26_apply, val_main_v23_apply, val_main_v25_apply, val_main_v24_apply]
  unfold G
  refine congrArg₂ (· + ·) (Finset.sum_congr rfl fun k _ => congrArg₂ (· * ·) ?_ ?_) (congrArg x4 ?_)
  · rw [val_main_v12_apply, val_main_v9_apply, val_main_v8_apply, val_main_v7_apply, val_main_v6_apply, val_main_v4_apply,
      val_main_v2_apply, val_main_v1_apply, val_main_v3_apply, val_main_v5_apply, val_main_cst_0_apply, val_main_cst_1_apply,
      val_main_cst_apply, val_main_v11_apply, val_main_v10_apply]
    have i1 : lidx_main_v23 (ix2 b o) k = ix2 b k :=
      funext fun a => Fin.ext (by match a with | ⟨0, _⟩ => rfl | ⟨1, _⟩ => rfl)
    rw [i1]
    have i2 : ∀ k', idx_main_v1 (idx_main_v2 (idx_main_v8 (ix2 b k))) k' = ix2 b k' := fun k' =>
      funext fun a => Fin.ext (by match a with | ⟨0, _⟩ => rfl | ⟨1, _⟩ => rfl)
    have i3 : idx_main_v10 (idx_main_v11 (ix2 b k)) = ix1 k :=
      funext fun a => Fin.ext (by match a with | ⟨0, _⟩ => rfl)
    rw [i3]
    simp only [i2, val_main_v0_apply, Ideal.mulf_def, Ideal.hostUnary_rsqrt_def, Ideal.addf_def, Ideal.hostDivf_def,
      Ideal.ofBits_def, Ideal.ofBits_zero_f32, zero_add]
    rfl
  · rw [val_main_v22_apply, val_main_v21_apply, val_main_v18_apply, val_main_v15_apply, val_main_v14_apply, val_main_v17_apply,
      val_main_v16_apply, val_main_v13_apply, val_main_v20_apply, val_main_v19_apply, val_main_v13_apply]
    have ho := o.isLt
    have hk := k.isLt
    have j1 : idx_main_v14 (idx_main_v22 (ridx_main_v23 (ix2 b o) k)) = ix2 o k :=
      funext fun a => Fin.ext (by
        match a with
        | ⟨0, _⟩ =>
          show (((o.val * 4096 + k.val) / 4096 * 32 + (o.val * 4096 + k.val) / 128 % 32) * 128 + (o.val * 4096 + k.val) % 128) / 4096 = o.val
          omega
        | ⟨1, _⟩ =>
          show (((o.val * 4096 + k.val) / 4096 * 32 + (o.val * 4096 + k.val) / 128 % 32) * 128 + (o.val * 4096 + k.val) % 128) % 4096 = k.val
          omega)
    have j2 : idx_main_v13 (idx_main_v16 (idx_main_v17 (idx_main_v22 (ridx_main_v23 (ix2 b o) k)))) = ix2 (pairRow o (grpOf k)) (0 : Fin 2) :=
      funext fun a => Fin.ext (by
        match a with
        | ⟨0, _⟩ =>
          show ((((o.val * 4096 + k.val) / 4096 * 32 + (o.val * 4096 + k.val) / 128 % 32) * 2 + 0) / 2) = o.val * 32 + k.val / 128
          omega
        | ⟨1, _⟩ =>
          show ((((o.val * 4096 + k.val) / 4096 * 32 + (o.val * 4096 + k.val) / 128 % 32) * 2 + 0) % 2) = 0
          omega)
    have j3 : idx_main_v13 (idx_main_v19 (idx_main_v20 (idx_main_v22 (ridx_main_v23 (ix2 b o) k)))) = ix2 (pairRow o (grpOf k)) (1 : Fin 2) :=
      funext fun a => Fin.ext (by
        match a with
        | ⟨0, _⟩ =>
          show ((((o.val * 4096 + k.val) / 4096 * 32 + (o.val * 4096 + k.val) / 128 % 32) * 2 + (1 + 0)) / 2) = o.val * 32 + k.val / 128
          omega
        | ⟨1, _⟩ =>
          show ((((o.val * 4096 + k.val) / 4096 * 32 + (o.val * 4096 + k.val) / 128 % 32) * 2 + (1 + 0)) % 2) = 1
          omega)
    rw [j1, j2, j3]
    rfl
  · exact funext fun a => Fin.ext (by match a with | ⟨0, _⟩ => rfl)

end Cert.QuantLinear

end
-- ==== Proof.lean ====
/-
  The certificate of a fused kernel — RMS normalization, dequantization of group-quantized integer
  weights, a linear layer and a bias — against its jnp reference, over the extended reals.

  Both programs compute, for an activation x : [8, 4096], integer weights wq : [14336, 4096], a pair
  table smv : [458752, 2] (scale, minimum per output row and group of 128 columns), a gain and a bias,
    G(b, o) = (∑ i < 4096, xn(b, i) · wdq(o, i)) + bias(o),
    xn(b, i) = x(b, i) · rsqrt((∑ x(b, ·)²) / 4096 + ε) · gain(i),
    wdq(o, i) = real(wq(o, i)) · scale(o, i / 128) + minimum(o, i / 128)
  (Proof/Spec.lean). The reference contracts all 4096 columns at once (Proof/RefValue.lean); the
  kernel, one block of 512 output rows per grid point, starts from zero and adds the 32 groups' partial
  products one after the other, in bf16 operands, which at the ideal values are the same extended
  reals (Proof/KernelGroup.lean, Proof/KernelBlock.lean, Proof/KernelValue.lean). The two agree because a
  sum over 4096 columns is the sum over the 32 groups of the sums over each group's 128 columns, which
  holds in any commutative monoid: the precondition (finite inputs) is never opened. The literals
  4096.0, ε and 0.0 are the same words in both programs.

  The three frames are the generated ones (the reference's is its generated run with the result
  dropped); the ideal pass rewrote nothing, so `preserves` is `True`.
-/
import proofs.«167626_j82162724372871_1_alg».proof.Defs
import proofs.«167626_j82162724372871_1_alg».proof.Proof.Gen.Kernel
import proofs.«167626_j82162724372871_1_alg».proof.Proof.Gen.Kernel.Skeleton
import proofs.«167626_j82162724372871_1_alg».proof.Proof.Gen.Kernel.Launch
import proofs.«167626_j82162724372871_1_alg».proof.Proof.Gen.Kernel.Points
import proofs.«167626_j82162724372871_1_alg».proof.Proof.Gen.Kernel.Frame
import proofs.«167626_j82162724372871_1_alg».proof.Proof.Gen.KernelIdeal
import proofs.«167626_j82162724372871_1_alg».proof.Proof.Gen.KernelIdeal.Skeleton
import proofs.«167626_j82162724372871_1_alg».proof.Proof.Gen.KernelIdeal.Launch
import proofs.«167626_j82162724372871_1_alg».proof.Proof.Gen.KernelIdeal.Points
import proofs.«167626_j82162724372871_1_alg».proof.Proof.Gen.KernelIdeal.Frame
import proofs.«167626_j82162724372871_1_alg».proof.Proof.Gen.ReferenceIdeal
import proofs.«167626_j82162724372871_1_alg».proof.Proof.Gen.Pre_finite_inputs
import proofs.«167626_j82162724372871_1_alg».proof.Proof.Gen.KernelIdeal.Value
import proofs.«167626_j82162724372871_1_alg».proof.Proof.Gen.ReferenceIdeal.Run
import proofs.«167626_j82162724372871_1_alg».proof.Proof.Gen.ReferenceIdeal.Read
import proofs.«167626_j82162724372871_1_alg».proof.Proof.KernelValue
import proofs.«167626_j82162724372871_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the five arguments, the kernel ends with `G` of them in its result
    array and the reference ends with its composed term, which is `G` of the same arguments. -/
theorem algebraic : Cert.algebraic_KernelIdeal_ReferenceIdeal := by
  intro m ρ m' ρ' _ hagree
  refine ⟨fun c => Cert.QuantLinear.Gk m c, Cert.QuantLinear.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.QuantLinear.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
